-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel

variable [Facts]

def fn {F : FTy → Type} [FloatOps F] (main_arg0 : FVec F S8x21x512x512 .f32) (main_arg1 : FVec F S8x21x512x512 .f32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_v4 : FVec F S8x21x512x512 .f32 := Host.absf main_arg1
  let main_cst_0 : FVec F S_ .f32 := constant S_ .f32 0x7F800000#32
  let main_v5 : FVec F S8x21x512x512 .f32 := broadcastInDim S8x21x512x512 ![] bcast_S_S8x21x512x512 main_cst_0
  let main_v6 : IVec S8x21x512x512 1 := cmpf .olt main_v4 main_v5
  let main_c_1 : IVec S_ 1 := constantI S_ 1 1#1
  let main_v7 : IVec S_ 1 := (fun x v => Host.reduce IntOp.andi x v reducesTo_S8x21x512x512_S_d0_1_2_3 h_S_) main_v6 main_c_1
  let main_v8 : IVec S_ 1 := andi main_v3 main_v7
  main_v8
-- ==== Kernel.lean ====
abbrev S8x21x512x512 : Shape := ⟨4, ![8, 21, 512, 512]⟩
abbrev S8x3x21 : Shape := ⟨3, ![8, 3, 21]⟩
abbrev S1x21x64x512 : Shape := ⟨4, ![1, 21, 64, 512]⟩
abbrev S1x3x21 : Shape := ⟨3, ![1, 3, 21]⟩
abbrev S1x21x64 : Shape := ⟨3, ![1, 21, 64]⟩
abbrev S1x21 : Shape := ⟨2, ![1, 21]⟩
abbrev S1x1x21 : Shape := ⟨3, ![1, 1, 21]⟩
abbrev S_ : Shape := ⟨0, ![]⟩
abbrev S3x21 : Shape := ⟨2, ![3, 21]⟩
abbrev S21 : Shape := ⟨1, ![21]⟩

abbrev nBuf : Space → Nat
  | .hbm => 24
  | .vmem => 6
  | .smem => 0
  | _ => 0

abbrev bufTy : (tb : Table) → Fin (tcTables nBuf tb) → BufTy
  | .hbm, ⟨0, _⟩ => ⟨S8x21x512x512, .f32⟩
  | .hbm, ⟨1, _⟩ => ⟨S8x21x512x512, .f32⟩
  | .hbm, ⟨2, _⟩ => ⟨S8x3x21, .f32⟩
  | .hbm, ⟨3, _⟩ => ⟨S_, .f32⟩
  | .hbm, ⟨4, _⟩ => ⟨S3x21, .f32⟩
  | .hbm, ⟨5, _⟩ => ⟨S1x21, .f32⟩
  | .hbm, ⟨6, _⟩ => ⟨S21, .f32⟩
  | .hbm, ⟨7, _⟩ => ⟨S1x21, .f32⟩
  | .hbm, ⟨8, _⟩ => ⟨S21, .f32⟩
  | .hbm, ⟨9, _⟩ => ⟨S1x21, .f32⟩
  | .hbm, ⟨10, _⟩ => ⟨S21, .f32⟩
  | .hbm, ⟨11, _⟩ => ⟨S21, .f32⟩
  | .hbm, ⟨12, _⟩ => ⟨S21, .f32⟩
  | .hbm, ⟨13, _⟩ => ⟨S_, .f32⟩
  | .hbm, ⟨14, _⟩ => ⟨S21, .f32⟩
  | .hbm, ⟨15, _⟩ => ⟨S21, .f32⟩
  | .hbm, ⟨16, _⟩ => ⟨S21, .f32⟩
  | .hbm, ⟨17, _⟩ => ⟨S_, .f32⟩
  | .hbm, ⟨18, _⟩ => ⟨S21, .f32⟩
  | .hbm, ⟨19, _⟩ => ⟨S21, .i1⟩
  | .hbm, ⟨20, _⟩ => ⟨S_, .f32⟩
  | .hbm, ⟨21, _⟩ => ⟨S_, .f32⟩
  | .hbm, ⟨22, _⟩ => ⟨S21, .f32⟩
  | .hbm, ⟨23, _⟩ => ⟨S21, .f32⟩
  | .local _ .vmem, ⟨0, _⟩ => ⟨S1x21x64x512, .f32⟩
  | .local _ .vmem, ⟨1, _⟩ => ⟨S1x21x64x512, .f32⟩
  | .local _ .vmem, ⟨2, _⟩ => ⟨S1x21x64x512, .f32⟩
  | .local _ .vmem, ⟨3, _⟩ => ⟨S1x21x64x512, .f32⟩
  | .local _ .vmem, ⟨4, _⟩ => ⟨S1x3x21, .f32⟩
  | .local _ .vmem, ⟨5, _⟩ => ⟨S1x3x21, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x21x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x3x21_S1x3x21_0_0_0 : ∀ a, (![0, 0, 0] : Fin 3 → Nat) a + S1x3x21.size a ≤ S1x3x21.size a
  h_S1x3x21 : 0 < S1x3x21.numel
  inb_S1x21x64x512_S1x21x64x512_0_0_0_0 : ∀ a, (![0, 0, 0, 0] : Fin 4 → Nat) a + S1x21x64x512.size a ≤ S1x21x64x512.size a
  h_S1x21x64x512 : 0 < S1x21x64x512.numel
  natLt_1_32 : 1 < 32
  reduces_S1x21x64x512_S1x21x64 : S1x21x64x512.Reduces [3] S1x21x64
  reduces_S1x21x64_S1x21 : S1x21x64.Reduces [2] S1x21
  shapeCasts_S1x21_S1x1x21 : S1x21.ShapeCasts S1x1x21
  concatenates_S1x1x21_S1x1x21_S1x1x21_S1x3x21_d1 : Shape.Concatenates [S1x1x21, S1x1x21, S1x1x21] S1x3x21 1
  shapeCasts_S1x3x21_S1x3x21 : S1x3x21.ShapeCasts S1x3x21
  reducesTo_S8x3x21_S3x21_d0 : S8x3x21.ReducesTo [0] S3x21
  h_S_ : 0 < S_.numel
  slices_S3x21_S1x21_0_0 : S3x21.Slices ![0, 0] S1x21
  shapeCasts_S1x21_S21 : S1x21.ShapeCasts S21
  slices_S3x21_S1x21_1_0 : S3x21.Slices ![1, 0] S1x21
  slices_S3x21_S1x21_2_0 : S3x21.Slices ![2, 0] S1x21
  bcast_S_S21 : S_.BroadcastsInDim S21 (![] : Fin 0 → Fin S21.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x64x512.size a ≤ S8x21x512x512.size a
  hwx0_0 : ∀ i : grid0.Coords, EltTy.bits .f32 = 32 ∨ (Rect.block (s := S8x21x512x512) S1x21x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x21x64x512.size a ≤ S8x21x512x512.size a
  hwx0_1 : ∀ i : grid0.Coords, EltTy.bits .f32 = 32 ∨ (Rect.block (s := S8x21x512x512) S1x21x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x21.size a ≤ S8x3x21.size a
  hwx0_2 : ∀ i : grid0.Coords, EltTy.bits .f32 = 32 ∨ (Rect.block (s := S8x3x21) S1x3x21.size (cc0_transform_2 i) (hinb0_2 i)).WholeWords (EltTy.packing .f32)

variable [Facts₀]

abbrev win0_0 : Pipeline.Window sig grid0 :=
  Pipeline.Window.ofSpec (Memref.whole main_arg0) S1x21x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x21x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x21.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S_ : Shape := ⟨0, ![]⟩
abbrev S21 : Shape := ⟨1, ![21]⟩

abbrev nBuf : Space → Nat
  | .hbm => 34
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x21x512x512, .f32⟩
  | .hbm, ⟨2, _⟩ => ⟨S_, .f32⟩
  | .hbm, ⟨3, _⟩ => ⟨S8x21x512x512, .f32⟩
  | .hbm, ⟨4, _⟩ => ⟨S8x21x512x512, .i1⟩
  | .hbm, ⟨5, _⟩ => ⟨S_, .f32⟩
  | .hbm, ⟨6, _⟩ => ⟨S8x21x512x512, .f32⟩
  | .hbm, ⟨7, _⟩ => ⟨S8x21x512x512, .i1⟩
  | .hbm, ⟨8, _⟩ => ⟨S8x21x512x512, .i1⟩
  | .hbm, ⟨9, _⟩ => ⟨S8x21x512x512, .i32⟩
  | .hbm, ⟨10, _⟩ => ⟨S_, .i32⟩
  | .hbm, ⟨11, _⟩ => ⟨S21, .i32⟩
  | .hbm, ⟨12, _⟩ => ⟨S21, .f32⟩
  | .hbm, ⟨13, _⟩ => ⟨S8x21x512x512, .i32⟩
  | .hbm, ⟨14, _⟩ => ⟨S_, .i32⟩
  | .hbm, ⟨15, _⟩ => ⟨S21, .i32⟩
  | .hbm, ⟨16, _⟩ => ⟨S21, .f32⟩
  | .hbm, ⟨17, _⟩ => ⟨S8x21x512x512, .i32⟩
  | .hbm, ⟨18, _⟩ => ⟨S_, .i32⟩
  | .hbm, ⟨19, _⟩ => ⟨S21, .i32⟩
  | .hbm, ⟨20, _⟩ => ⟨S21, .f32⟩
  | .hbm, ⟨21, _⟩ => ⟨S21, .f32⟩
  | .hbm, ⟨22, _⟩ => ⟨S21, .f32⟩
  | .hbm, ⟨23, _⟩ => ⟨S_, .f32⟩
  | .hbm, ⟨24, _⟩ => ⟨S21, .f32⟩
  | .hbm, ⟨25, _⟩ => ⟨S21, .f32⟩
  | .hbm, ⟨26, _⟩ => ⟨S21, .f32⟩
  | .hbm, ⟨27, _⟩ => ⟨S_, .f32⟩
  | .hbm, ⟨28, _⟩ => ⟨S21, .f32⟩
  | .hbm, ⟨29, _⟩ => ⟨S21, .i1⟩
  | .hbm, ⟨30, _⟩ => ⟨S_, .f32⟩
  | .hbm, ⟨31, _⟩ => ⟨S_, .f32⟩
  | .hbm, ⟨32, _⟩ => ⟨S21, .f32⟩
  | .hbm, ⟨33, _⟩ => ⟨S21, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S8x21x512x512 : S_.BroadcastsInDim S8x21x512x512 (![] : Fin 0 → Fin S8x21x512x512.rank)
  natLt_1_32 : 1 < 32
  reducesTo_S8x21x512x512_S21_d0_2_3 : S8x21x512x512.ReducesTo [0, 2, 3] S21
  h_S_ : 0 < S_.numel
  bcast_S_S21 : S_.BroadcastsInDim S21 (![] : Fin 0 → Fin S21.rank)

variable [Facts₀]

class Facts : Prop extends Facts₀ where

variable [Facts]
-- ==== Proof.Counts.lean ====
/-
  Counting with 0/1 values on the extended reals.

  A one-bit word `b` is read as the extended real `bitVal b`, which is 0 or 1: it is what a bit becomes when it is
  widened to 32 bits and converted to a float. Three facts are proved here, for any array of bits over the index set
  [8, 21, 512, 512] (batch, class, row, lane):
  * the conjunction of two bits has the product of their values (`bitVal_andi`);
  * the number of set bits in a finite set of fewer than 2^31 indices, computed as a 32-bit word and read back as a
    signed integer, is the sum of the bits' values (`count_word_eq_sum`): the word cannot wrap;
  * the indices whose class coordinate is `c` are the triples (batch, row, lane), so a sum over that set is a triple sum
    (`sum_over_class`); hence the host's 32-bit count of a bit array, converted to a float, is the triple sum of the
    bits' values (`host_count_apply`).
  The module also names what both programs compute: the threshold bits (`predBit`, `targBit`), the three statistics of a
  position (`stat`) and of a class (`classStat`), the common last stretch (`iouTail`) and the result (`iouOf`).
  Only commutativity and associativity of `+` on the extended reals are used: no finiteness is needed.
-/
import Idealize.ShloMosaic.PureOps.Ideal
import Idealize.ShloMosaic.PureOps.Reduce
import Idealize.ShloMosaic.Lib.ValueIdx
import Idealize.ShloMosaic.Lib.IndicatorCount
import Idealize.ShloMosaic.Lib.KernelVsHost

noncomputable section

namespace Cert.Jaccard

open Idealize.ShloMosaic Idealize.ShloMosaic.ValueIdx

/-- The arrays' shape: batch, class, row, lane. -/
abbrev SArr : Shape := ⟨4, ![8, 21, 512, 512]⟩
/-- One entry per class. -/
abbrev SCls : Shape := ⟨1, ![21]⟩

/-- A bit as an extended real: widened to a 32-bit word, read signed, as a real. It is 0 or 1. -/
def bitVal (b : BitVec 1) : EReal := (((b.setWidth 32).toInt : ℝ) : EReal)

theorem bit_cases : ∀ a : BitVec 1, a = 0#1 ∨ a = 1#1 := by decide

theorem bitVal_zero : bitVal 0#1 = 0 := by
  show ((((0#1 : BitVec 1).setWidth 32).toInt : ℝ) : EReal) = 0
  rw [toInt_setWidth_bit]; simp

theorem bitVal_one : bitVal 1#1 = 1 := by
  show ((((1#1 : BitVec 1).setWidth 32).toInt : ℝ) : EReal) = 1
  rw [toInt_setWidth_bit]; simp

/-- The conjunction of two bits has the product of their values. -/
theorem bitVal_andi (a b : BitVec 1) : bitVal (IntOp.andi a b) = bitVal a * bitVal b := by
  rcases bit_cases a with rfl | rfl <;> rcases bit_cases b with rfl | rfl
  · rw [show IntOp.andi (0#1 : BitVec 1) 0#1 = 0#1 from by decide, bitVal_zero, zero_mul]
  · rw [show IntOp.andi (0#1 : BitVec 1) 1#1 = 0#1 from by decide, bitVal_zero, zero_mul]
  · rw [show IntOp.andi (1#1 : BitVec 1) 0#1 = 0#1 from by decide, bitVal_zero, mul_zero]
  · rw [show IntOp.andi (1#1 : BitVec 1) 1#1 = 1#1 from by decide, bitVal_one, mul_one]

/-- The sum of the values of the bits over a finite set is the number of set bits. -/
theorem sum_bitVal_eq_card {ι : Type} (p : ι → BitVec 1) (S : Finset ι) :
    ∑ k ∈ S, bitVal (p k) = (((S.filter fun k => p k = 1#1).card : ℝ) : EReal) := by
  classical
  induction S using Finset.induction_on with
  | empty => simp
  | insert a S ha ih =>
    rw [Finset.sum_insert ha, ih, Finset.filter_insert]
    rcases bit_cases (p a) with h | h
    · rw [if_neg (by rw [h]; decide), h, bitVal_zero, zero_add]
    · rw [if_pos h, Finset.card_insert_of_notMem (fun hm => ha (Finset.mem_filter.1 hm).1), h, bitVal_one]
      rw [Nat.cast_add, Nat.cast_one, EReal.coe_add, EReal.coe_one, add_comm]

/-- A count below 2^31, as a 32-bit word read signed, is the count. -/
theorem toInt_ofNat_of_lt (n : ℕ) (hn : n < 2 ^ 31) : (BitVec.ofNat 32 n).toInt = (n : ℤ) := by
  rw [BitVec.toInt_eq_toNat_of_lt (by rw [BitVec.toNat_ofNat, Nat.mod_eq_of_lt (by omega)]; omega),
    BitVec.toNat_ofNat, Nat.mod_eq_of_lt (by omega)]

/-- The number of set bits among fewer than 2^31, taken as a 32-bit word and converted signed, is the sum of the bits'
    values. -/
theorem count_word_eq_sum {ι : Type} (p : ι → BitVec 1) (S : Finset ι) (hS : S.card < 2 ^ 31) :
    ((((BitVec.ofNat 32 (S.filter fun k => p k = 1#1).card).toInt : ℤ) : ℝ) : EReal) = ∑ k ∈ S, bitVal (p k) := by
  classical
  rw [sum_bitVal_eq_card, toInt_ofNat_of_lt _ (lt_of_le_of_lt (Finset.card_filter_le _ _) hS)]
  norm_cast

/-- "The prediction is at least one half", as a bit: the comparison both programs make. -/
def predBit (p : Ideal .f32) : BitVec 1 :=
  FloatOps.cmpf (F := Ideal) .oge p (FloatOps.ofBits (F := Ideal) .f32 0x3F000000#32)

/-- "The target equals one", as a bit. -/
def targBit (t : Ideal .f32) : BitVec 1 :=
  FloatOps.cmpf (F := Ideal) .oeq t (FloatOps.ofBits (F := Ideal) .f32 0x3F800000#32)

/-- The three statistics of one position, each 0 or 1: prediction and target both set (0), prediction set (1),
    target set (2). -/
def stat (k : Fin 3) (p t : Ideal .f32) : EReal :=
  ![bitVal (predBit p) * bitVal (targBit t), bitVal (predBit p), bitVal (targBit t)] k

/-- Statistic `k` of class `c`, summed over batch, rows and lanes. -/
def classStat (P T : FVec Ideal SArr .f32) (k : Fin 3) (c : Fin 21) : EReal :=
  ∑ b : Fin 8, ∑ r : Fin 512, ∑ l : Fin 512, stat k (P (ix4 b c r l)) (T (ix4 b c r l))

/-- An index belongs to class `j 0` exactly when its class coordinate is `j 0`. -/
theorem drop_eq_iff (h : SArr.ReducesTo [0, 2, 3] SCls) (i : SArr.Idx) (j : SCls.Idx) : h.drop i = j ↔ i 1 = j 0 := by
  have hd : (h.drop i (0 : Fin 1) : ℕ) = i (1 : Fin 4) :=
    Shape.ReducesTo.drop_apply_val_of_eq h i (0 : Fin 1) (1 : Fin 4)
  constructor
  · intro e; apply Fin.ext; rw [← hd, e]
  · intro e; funext d
    match d with
    | ⟨0, _⟩ => exact Fin.ext (hd.trans (congrArg Fin.val e))

/-- The indices of class `j 0` are the triples (batch, row, lane): a sum over them is a triple sum. -/
theorem sum_over_class {M : Type*} [AddCommMonoid M] (h : SArr.ReducesTo [0, 2, 3] SCls) (f : SArr.Idx → M) (j : SCls.Idx) :
    ∑ i ∈ Finset.univ.filter (fun i => h.drop i = j), f i
      = ∑ b : Fin 8, ∑ r : Fin 512, ∑ l : Fin 512, f (ix4 b (j 0) r l) := by
  calc ∑ i ∈ Finset.univ.filter (fun i => h.drop i = j), f i
      = ∑ q : Fin 8 × Fin 512 × Fin 512, f (ix4 q.1 (j 0) q.2.1 q.2.2) := by
        refine Finset.sum_nbij' (fun i => ((i 0, i 2, i 3) : Fin 8 × Fin 512 × Fin 512))
          (fun q => ix4 q.1 (j 0) q.2.1 q.2.2) ?_ ?_ ?_ ?_ ?_
        · intro i _; exact Finset.mem_univ _
        · intro q _; exact Finset.mem_filter.2 ⟨Finset.mem_univ _, (drop_eq_iff h _ j).2 rfl⟩
        · intro i hi
          have e := (drop_eq_iff h i j).1 (Finset.mem_filter.1 hi).2
          rw [← e]; exact (eq_ix4 i).symm
        · intro q _; rfl
        · intro i hi
          have e := (drop_eq_iff h i j).1 (Finset.mem_filter.1 hi).2
          rw [← e]; exact congrArg f (eq_ix4 i)
    _ = _ := by
        rw [Fintype.sum_prod_type]
        refine Finset.sum_congr rfl fun b _ => ?_
        rw [Fintype.sum_prod_type]

/-- The host's count: a 0/1 array widened to 32-bit words, summed over batch, rows and lanes in 32-bit arithmetic from
    zero and converted to a float, is at class `j 0` the triple sum of the bits' values. The array has 8·21·512·512
    entries, fewer than 2^31, so the word sum cannot wrap. -/
theorem host_count_apply (β : SArr.Idx → BitVec 1) (h : SArr.ReducesTo [0, 2, 3] SCls)
    (hu : 0 < (⟨0, ![]⟩ : Shape).numel) (hlt : 1 < 32) (j : SCls.Idx) :
    FloatOps.sitofp (F := Ideal) .f32 (Host.reduce IntOp.addi (extui 32 β hlt) (constantI ⟨0, ![]⟩ 32 0#32) h hu j)
      = ∑ b : Fin 8, ∑ r : Fin 512, ∑ l : Fin 512, bitVal (β (ix4 b (j 0) r l)) := by
  have hcard : (Finset.univ.filter fun i : SArr.Idx => h.drop i = j).card < 2 ^ 31 :=
    lt_of_le_of_lt (Finset.card_le_univ _) (by rw [Shape.card_idx]; decide)
  rw [Host.reduce_eq_fold]
  show ((((Finset.univ.filter fun i : SArr.Idx => h.drop i = j).fold IntOp.addi (0#32)
    (fun k => (β k).setWidth 32)).toInt : ℝ) : EReal) = _
  rw [IndicatorCount.fold_addi_setWidth_eq_card, count_word_eq_sum β _ hcard, sum_over_class h (fun i => bitVal (β i)) j]

/-- The last stretch of both programs, as one function of the three per-class vectors (both set, prediction set, target
    set): the union is prediction + target − both; the result is both / max(union, 1), and the quiet-NaN word where the
    union is zero. It is stated at any float instance; nothing in it is ever evaluated. -/
def iouTail {F : FTy → Type} [FloatOps F] (hb : (⟨0, ![]⟩ : Shape).BroadcastsInDim SCls (![] : Fin 0 → Fin SCls.rank))
    (I Pd Tg : FVec F SCls .f32) : FVec F SCls .f32 :=
  select (cmpf (F := F) .oeq (subf (addf Pd Tg) I) (broadcastInDim SCls ![] hb (constant (F := F) ⟨0, ![]⟩ .f32 0x00000000#32)))
    (broadcastInDim SCls ![] hb (id (constant (F := F) ⟨0, ![]⟩ .f32 0x7FC00000#32)))
    (Host.divf I (maximumf (subf (addf Pd Tg) I) (broadcastInDim SCls ![] hb (constant (F := F) ⟨0, ![]⟩ .f32 0x3F800000#32))))

/-- The result both programs are shown to compute, from the arrays of predictions and targets. -/
def iouOf (hb : (⟨0, ![]⟩ : Shape).BroadcastsInDim SCls (![] : Fin 0 → Fin SCls.rank)) (P T : FVec Ideal SArr .f32) :
    FVec Ideal SCls .f32 :=
  iouTail hb (fun j => classStat P T 0 (j 0)) (fun j => classStat P T 1 (j 0)) (fun j => classStat P T 2 (j 0))

end Cert.Jaccard

end
-- ==== Proof.RefValue.lean ====
/-
  The reference's result on the extended reals.

  The reference compares the predictions with one half and the targets with one, takes the conjunction of the two bit
  arrays, widens each of the three bit arrays to 32-bit words, sums each over batch, rows and lanes in 32-bit arithmetic,
  converts the three counts to floats, and ends with the intersection-over-union tail. Each count is, at class `c`, the
  triple sum of the bits' values (`Cert.Jaccard.host_count_apply`: fewer than 2^31 entries, so no wrap), and the value of a
  conjunction is the product of the values, so the three float vectors are the class statistics 0, 1, 2 of the arguments
  and the result is `Cert.Jaccard.iouOf` of them.
-/
import proofs.«158368_j88905823027748_1_alg».proof.Proof.RefRead
import proofs.«158368_j88905823027748_1_alg».proof.Proof.Counts

noncomputable section

namespace Cert.ReferenceIdeal.RefValue

open Cert.ReferenceIdeal Cert.ReferenceIdeal.Gen Cert.ReferenceIdeal.ReadP Cert.Jaccard
open Idealize.ShloMosaic Idealize.ShloMosaic.ValueIdx

/-- The bit "prediction at least one half" is the reference's first comparison, entry by entry. -/
theorem pred_bit (x0 : FVec Ideal S8x21x512x512 .f32) (i : S8x21x512x512.Idx) :
    val_main_v1 (F := Ideal) x0 i = predBit (x0 i) := rfl

/-- The bit "target equal to one" is its second comparison. -/
theorem targ_bit (x1 : FVec Ideal S8x21x512x512 .f32) (i : S8x21x512x512.Idx) :
    val_main_v3 (F := Ideal) x1 i = targBit (x1 i) := rfl

/-- The converted count of the conjunction is class statistic 0. -/
theorem both_count (x0 x1 : FVec Ideal S8x21x512x512 .f32) :
    val_main_v7 (F := Ideal) x0 x1 = fun j => classStat x0 x1 0 (j 0) := by
  funext j
  refine (host_count_apply (val_main_v4 (F := Ideal) x0 x1) reducesTo_S8x21x512x512_S21_d0_2_3 h_S_ natLt_1_32 j).trans ?_
  refine Finset.sum_congr rfl fun b _ => Finset.sum_congr rfl fun r _ => Finset.sum_congr rfl fun l _ => ?_
  show bitVal (IntOp.andi (predBit (x0 _)) (targBit (x1 _))) = bitVal (predBit (x0 _)) * bitVal (targBit (x1 _))
  exact bitVal_andi _ _

/-- The converted count of the prediction bits is class statistic 1. -/
theorem pred_count (x0 x1 : FVec Ideal S8x21x512x512 .f32) :
    val_main_v10 (F := Ideal) x0 = fun j => classStat x0 x1 1 (j 0) := by
  funext j
  exact host_count_apply (val_main_v1 (F := Ideal) x0) reducesTo_S8x21x512x512_S21_d0_2_3 h_S_ natLt_1_32 j

/-- The converted count of the target bits is class statistic 2. -/
theorem targ_count (x0 x1 : FVec Ideal S8x21x512x512 .f32) :
    val_main_v13 (F := Ideal) x1 = fun j => classStat x0 x1 2 (j 0) := by
  funext j
  exact host_count_apply (val_main_v3 (F := Ideal) x1) reducesTo_S8x21x512x512_S21_d0_2_3 h_S_ natLt_1_32 j

/-- The reference's last stage is the tail of its three converted counts, -/
theorem result_tail (x0 x1 : FVec Ideal S8x21x512x512 .f32) :
    val_main_v21 (F := Ideal) x0 x1
      = iouTail (F := Ideal) bcast_S_S21 (val_main_v7 (F := Ideal) x0 x1) (val_main_v10 (F := Ideal) x0) (val_main_v13 (F := Ideal) x1) := rfl

/-- so it is `iouOf` of the arguments. -/
theorem result_eq (x0 x1 : FVec Ideal S8x21x512x512 .f32) :
    val_main_v21 (F := Ideal) x0 x1 = iouOf bcast_S_S21 x0 x1 := by
  rw [result_tail, both_count, pred_count x0 x1, targ_count x0 x1]
  rfl

end Cert.ReferenceIdeal.RefValue

end
-- ==== Proof.PointPieces.lean ====
/-
  What one grid point leaves in the output's staging buffer, as a value.

  The body of the kernel stores the [1, 3, 21] block of running statistics once per point: the block it found there plus
  the tile's three per-class sums (the payload `k0_pay2` of the tile of predictions, the tile of targets and the block
  found). At the first tile of a batch element the body first stores the zero block (`k0_pay1`) and reads it back, so
  there the block found is the zero block; at every other tile it is what the point before left. Both facts hold at any
  float instance: they only read the stores' pieces back through the whole staging buffers.
-/
import proofs.«158368_j88905823027748_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Point

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A tile that is not the first of its batch element: the block found `xo` plus the tile's sums. -/
theorem later_tile (c : Dev nD) (i : grid0.Coords) (a2 : Memref sig .tc .vmem S1x21x64x512 .f32) (h2 : a2.IsWhole)
    (a3 : Memref sig .tc .vmem S1x21x64x512 .f32) (h3 : a3.IsWhole) (a4 : Memref sig .tc .vmem S1x3x21 .f32) (h4 : a4.IsWhole)
    (hc : ¬cond0_0 i) (x0 x1 : Vec F S1x21x64x512 .f32) (xo : Vec F S1x3x21 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread,
    View.ld_unit_zero (S := S1x21x64x512) hz4, View.ld_unit_zero (S := S1x3x21) hz3]

/-- The first tile of a batch element: the zero block, stored and read back, plus the tile's sums. -/
theorem first_tile (c : Dev nD) (i : grid0.Coords) (a2 : Memref sig .tc .vmem S1x21x64x512 .f32) (h2 : a2.IsWhole)
    (a3 : Memref sig .tc .vmem S1x21x64x512 .f32) (h3 : a3.IsWhole) (a4 : Memref sig .tc .vmem S1x3x21 .f32) (h4 : a4.IsWhole)
    (hc : cond0_0 i) (x0 x1 : Vec F S1x21x64x512 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x3x21) hz3, View.readCov_unit_zero (S := S1x3x21) _ hz3]
  simp only [View.readAt_eq_ld, h2.read_unread, h3.read_unread,
    View.ld_unit_zero (S := S1x21x64x512) hz4, View.ld_unit_zero (S := S1x3x21) hz3]

end Cert.KernelIdeal.Point

end
-- ==== Proof.TileSums.lean ====
/-
  One tile's sums, read at an entry.

  The kernel sums a [1, 21, 64, 512] tile of 0/1 values first along the lanes and then along the rows; at class `c` the
  result is the double sum over the tile's 64 rows and 512 lanes (`tile_sum_apply`: each single-axis sum is the sum over
  that axis's coordinates). The three resulting [1, 21] vectors are viewed as [1, 1, 21] and stacked along axis 1 into a
  [1, 3, 21] block, whose entry (0, k, c) is the k-th vector at (0, c) (`stack_apply`).
-/
import proofs.«158368_j88905823027748_1_alg».proof.Proof.Counts
import Idealize.ShloMosaic.PureOps.Ideal.Laws
import Idealize.ShloMosaic.Lib.Pipeline.Value
import Idealize.ShloMosaic.Lib.ValueIdx

noncomputable section

namespace Cert.Jaccard

open Idealize.ShloMosaic Idealize.ShloMosaic.ValueIdx

abbrev STile : Shape := ⟨4, ![1, 21, 64, 512]⟩
abbrev SRows : Shape := ⟨3, ![1, 21, 64]⟩
abbrev SCol : Shape := ⟨2, ![1, 21]⟩
abbrev SOne : Shape := ⟨3, ![1, 1, 21]⟩
abbrev SStat : Shape := ⟨3, ![1, 3, 21]⟩

theorem tile_sum_apply (v : FVec Ideal STile .f32) (h1 : STile.Reduces [3] SRows) (h2 : SRows.Reduces [2] SCol)
    (hφ : FKind.Formats .f32) (hacc : (0x00000000#32 : BitVec 32) = FKind.add.neutral .f32 hφ) (c : Fin 21) :
    multiReduction (F := Ideal) .add [2] SCol (multiReduction (F := Ideal) .add [3] SRows v 0x00000000#32 h1 hφ hacc)
        0x00000000#32 h2 hφ hacc (ix2 0 c)
      = ∑ r : Fin 64, ∑ l : Fin 512, v (ix4 0 c r l) := by
  refine (Ideal.multiReduction_add_single _ 0x00000000#32 h2 hφ hacc (ix2 0 c)).trans ?_
  refine Finset.sum_congr rfl fun r _ => ?_
  refine (Ideal.multiReduction_add_single v 0x00000000#32 h1 hφ hacc _).trans ?_
  refine Finset.sum_congr rfl fun l _ => congrArg v ?_
  funext a; apply Fin.ext
  match a with
  | ⟨0, _⟩ => rfl
  | ⟨1, _⟩ => rfl
  | ⟨2, _⟩ => rfl
  | ⟨3, _⟩ => rfl

theorem stack_apply (u0 u1 u2 : FVec Ideal SCol .f32) (hs : SCol.ShapeCasts SOne)
    (hcat : Shape.Concatenates [SOne, SOne, SOne] SStat 1) (k : Fin 3) (c : Fin 21) :
    concatenate SStat 1 [⟨SOne, shapeCast SOne u0 hs⟩, ⟨SOne, shapeCast SOne u1 hs⟩, ⟨SOne, shapeCast SOne u2 hs⟩] hcat (ix3 0 k c)
      = (![u0, u1, u2] k) (ix2 0 c) := by
  have cast_apply : ∀ u : FVec Ideal SCol .f32, shapeCast SOne u hs (ix3 0 0 c) = u (ix2 0 c) := fun u =>
    shapeCast_apply u hs (ix3 0 0 c) (ix2 0 c) (by rw [Shape.rowMajor_val_two, Shape.rowMajor_val_three]; rfl)
  have off_axis : ∀ (k : Fin 3) (b : Fin 3), b ≠ 1 → ((ix3 (0 : Fin 1) (0 : Fin 1) c : SOne.Idx) b).val = ((ix3 (0 : Fin 1) k c : SStat.Idx) b).val := by
    intro k b hb
    match b with
    | ⟨0, _⟩ => rfl
    | ⟨1, _⟩ => exact absurd rfl hb
    | ⟨2, _⟩ => rfl
  match k with
  | ⟨0, _⟩ =>
    exact (concatenate_apply_piece (t := SStat) (1 : Fin 3)
      [⟨SOne, shapeCast SOne u0 hs⟩, ⟨SOne, shapeCast SOne u1 hs⟩, ⟨SOne, shapeCast SOne u2 hs⟩] hcat (ix3 0 0 c)
      0 (by show (0 : ℕ) < 3; omega) SOne (shapeCast SOne u0 hs) rfl rfl 0 rfl (ix3 0 0 c) (fun b hb => off_axis 0 b hb) rfl).trans (cast_apply u0)
  | ⟨1, _⟩ =>
    exact (concatenate_apply_piece (t := SStat) (1 : Fin 3)
      [⟨SOne, shapeCast SOne u0 hs⟩, ⟨SOne, shapeCast SOne u1 hs⟩, ⟨SOne, shapeCast SOne u2 hs⟩] hcat (ix3 0 1 c)
      1 (by show (1 : ℕ) < 3; omega) SOne (shapeCast SOne u1 hs) rfl rfl 1 rfl (ix3 0 0 c) (fun b hb => off_axis 1 b hb) rfl).trans (cast_apply u1)
  | ⟨2, _⟩ =>
    exact (concatenate_apply_piece (t := SStat) (1 : Fin 3)
      [⟨SOne, shapeCast SOne u0 hs⟩, ⟨SOne, shapeCast SOne u1 hs⟩, ⟨SOne, shapeCast SOne u2 hs⟩] hcat (ix3 0 2 c)
      2 (by show (2 : ℕ) < 3; omega) SOne (shapeCast SOne u2 hs) rfl rfl 2 rfl (ix3 0 0 c) (fun b hb => off_axis 2 b hb) rfl).trans (cast_apply u2)

end Cert.Jaccard

end
-- ==== Proof.TilePayload.lean ====
/-
  The block one grid point stores, read at an entry, on the extended reals.

  With both threshold bits read as 0/1 values (`Cert.Jaccard.stat`), the three [1, 21] vectors the body stacks are the
  tile's double sums of: the product of the two bits' values, the prediction bit's value, the target bit's value. So
  entry (0, k, c) of the stored block is entry (0, k, c) of the block found plus statistic `k` of the tile at class `c`.
-/
import proofs.«158368_j88905823027748_1_alg».proof.Proof.Gen.KernelIdeal.Skeleton
import proofs.«158368_j88905823027748_1_alg».proof.Proof.TileSums
import Idealize.ShloMosaic.Lib.ValueIdx

noncomputable section

namespace Cert.KernelIdeal.Point

open Cert.KernelIdeal Cert.KernelIdeal.Gen Cert.Jaccard
open Idealize.ShloMosaic Idealize.ShloMosaic.ValueIdx

/-- Statistic `k` of one tile at class `c`: the sum over the tile's 64 rows and 512 lanes. -/
def tileStat (x0 x1 : FVec Ideal S1x21x64x512 .f32) (k : Fin 3) (c : Fin 21) : EReal :=
  ∑ r : Fin 64, ∑ l : Fin 512, stat k (x0 (ix4 0 c r l)) (x1 (ix4 0 c r l))

/-- The block a point stores, at entry (0, k, c): the block found there plus statistic `k` of the tile at class `c`. -/
theorem payload_apply (x0 x1 : FVec Ideal S1x21x64x512 .f32) (xo : FVec Ideal S1x3x21 .f32) (k : Fin 3) (c : Fin 21) :
    k0_pay2 (F := Ideal) x0 x1 xo (ix3 0 k c) = xo (ix3 0 k c) + tileStat x0 x1 k c := by
  unfold k0_pay2
  refine (addf_apply _ _ _).trans ?_
  refine congrArg₂ (· + ·) (congrFun (shapeCast_self xo shapeCasts_S1x3x21_S1x3x21) _) ?_
  refine (stack_apply _ _ _ shapeCasts_S1x21_S1x1x21 concatenates_S1x1x21_S1x1x21_S1x1x21_S1x3x21_d1 k c).trans ?_
  match k with
  | ⟨0, _⟩ =>
    exact tile_sum_apply (fun i => stat 0 (x0 i) (x1 i)) reduces_S1x21x64x512_S1x21x64 reduces_S1x21x64_S1x21 (.inl rfl) rfl c
  | ⟨1, _⟩ =>
    exact tile_sum_apply (fun i => stat 1 (x0 i) (x1 i)) reduces_S1x21x64x512_S1x21x64 reduces_S1x21x64_S1x21 (.inl rfl) rfl c
  | ⟨2, _⟩ =>
    exact tile_sum_apply (fun i => stat 2 (x0 i) (x1 i)) reduces_S1x21x64x512_S1x21x64 reduces_S1x21x64_S1x21 (.inl rfl) rfl c

/-- The zero block the first tile of a batch element starts from is zero at every entry. -/
theorem zero_block_apply (i : S1x3x21.Idx) : k0_pay1 (F := Ideal) i = 0 := Ideal.ofBits_zero_f32

end Cert.KernelIdeal.Point

end
-- ==== Proof.LibTileSum.lean ====
/-
  Sums taken tile by tile.

  A sum over the first `a * b` naturals is the sum, over `a` consecutive tiles of length `b`, of each tile's
  own sum: `∑ k < a·b, f k = ∑ s < a, ∑ j < b, f (b·s + j)`. Only associativity of `+` is used, so the law
  holds in any additive commutative monoid — in particular on the extended reals, where no finiteness is needed.
  The `Fin` form states the same for a sum over `Fin (a * b)` against a sum over `Fin a × Fin b` spelled as
  an iterated sum, which is how a contraction over a long axis meets the same contraction accumulated
  block by block.
-/
import Mathlib.Algebra.BigOperators.Group.Finset.Basic
import Mathlib.Algebra.BigOperators.Fin

namespace TileSum

open Finset

variable {β : Type*} [AddCommMonoid β]

/-- A sum over `range (a * b)` is the sum over the `a` tiles `[b·s, b·s + b)` of the tiles' sums. -/
theorem sum_range_mul (f : ℕ → β) (a b : ℕ) :
    ∑ k ∈ range (a * b), f k = ∑ s ∈ range a, ∑ j ∈ range b, f (b * s + j) := by
  induction a with
  | zero => simp
  | succ a ih =>
    rw [Nat.succ_mul, sum_range_add, ih, sum_range_succ, Nat.mul_comm a b]

/-- The same with the long sum over `Fin (a * b)` and the tiles over `Fin a` and `Fin b`: `g` is any
    function of the natural index that the two sides agree to read. -/
theorem sum_fin_mul (g : ℕ → β) (a b : ℕ) :
    ∑ k : Fin (a * b), g k.val = ∑ s : Fin a, ∑ j : Fin b, g (b * s.val + j.val) := by
  rw [Fin.sum_univ_eq_sum_range (fun k => g k) (a * b), sum_range_mul g a b,
    ← Fin.sum_univ_eq_sum_range (fun s => ∑ j ∈ range b, g (b * s + j)) a]
  refine Finset.sum_congr rfl fun s _ => ?_
  exact (Fin.sum_univ_eq_sum_range (fun j => g (b * s.val + j)) b).symm

/-- The tiles' sum written over `range a` (as a fold over grid points unrolls it) against the long sum over
    `Fin (a * b)`. -/
theorem sum_range_tiles_eq_sum_fin (g : ℕ → β) (a b : ℕ) :
    ∑ s ∈ range a, ∑ j : Fin b, g (b * s + j.val) = ∑ k : Fin (a * b), g k.val := by
  rw [Fin.sum_univ_eq_sum_range (fun k => g k) (a * b), sum_range_mul g a b]
  refine Finset.sum_congr rfl fun s _ => ?_
  exact Fin.sum_univ_eq_sum_range (fun j => g (b * s + j)) b

end TileSum
-- ==== Proof.RunningSums.lean ====
/-
  The region's output array, as one function of the two argument arrays.

  The 8 × 8 grid visits, for each batch element in turn, its eight tiles of 64 rows. The output window's [1, 3, 21] block
  stays in place during a batch element and is written back after its last tile. By induction on the grid point the block
  holds, after tile `s` of batch element `b`, the statistics of rows `0 … 64 s + 63` of `b` (`running`): the first tile
  starts from the zero block, every later tile adds to what the point before left. After the eighth tile that is the sum
  over all 512 rows (`batch_total`), so each write-back writes block `b` of `partialArr`, whose entry (b, k, c) is statistic
  `k` of class `c` in batch element `b`; the eight write-backs cover the [8, 3, 21] array (`final_partial`). Only sums of
  extended reals are re-associated: no finiteness is used.
-/
import proofs.«158368_j88905823027748_1_alg».proof.Proof.Gen.KernelIdeal.Frame
import proofs.«158368_j88905823027748_1_alg».proof.Proof.PointPieces
import proofs.«158368_j88905823027748_1_alg».proof.Proof.TilePayload
import proofs.«158368_j88905823027748_1_alg».proof.Proof.LibTileSum
import Idealize.ShloMosaic.Lib.Pipeline.Value

noncomputable section

namespace Cert.KernelIdeal.Point

open Cert.KernelIdeal Cert.KernelIdeal.Gen Cert.Jaccard
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The two argument arrays as the region finds them, and their tiles at a grid point, at their literal types. -/
abbrev predArr (c : Dev nD) : FVec Ideal S8x21x512x512 .f32 := V m c main_arg0
abbrev targArr (c : Dev nD) : FVec Ideal S8x21x512x512 .f32 := V m c main_arg1
abbrev predTile (c : Dev nD) (t : Fin cfg0.N) : FVec Ideal S1x21x64x512 .f32 := iblk m c 0 t
abbrev targTile (c : Dev nD) (t : Fin cfg0.N) : FVec Ideal S1x21x64x512 .f32 := iblk m c 1 t

/-- Point `t` of the 8 × 8 grid is tile `t % 8` of batch element `t / 8`: the printed index maps, decided over the grid. -/
theorem idx_facts : ∀ t : Fin cfg0.N,
    win0_0.index t (0 : Fin 4) = t.val / 8 ∧ win0_0.index t (1 : Fin 4) = 0 ∧ win0_0.index t (2 : Fin 4) = t.val % 8 ∧ win0_0.index t (3 : Fin 4) = 0
    ∧ win0_1.index t (0 : Fin 4) = t.val / 8 ∧ win0_1.index t (1 : Fin 4) = 0 ∧ win0_1.index t (2 : Fin 4) = t.val % 8 ∧ win0_1.index t (3 : Fin 4) = 0
    ∧ win0_2.index t (0 : Fin 3) = t.val / 8 ∧ win0_2.index t (1 : Fin 3) = 0 ∧ win0_2.index t (2 : Fin 3) = 0 :=
  (by decide +kernel : ∀ t : Fin grid0.N, _)

/-- The prediction tile at point `t` holds rows `64 (t % 8) … + 63` of batch element `t / 8`. -/
theorem predTile_apply (c : Dev nD) (t : Fin cfg0.N) (cls : Fin 21) (r : Fin 64) (l : Fin 512) (b : Fin 8) (h : Fin 512)
    (hb : b.val = t.val / 8) (hh : h.val = 64 * (t.val % 8) + r.val) :
    predTile m c t (ix4 0 cls r l) = predArr m c (ix4 b cls h l) := by
  obtain ⟨e0, e1, e2, e3, -⟩ := idx_facts t
  show iblk m c 0 t _ = _
  unfold iblk
  rw [View.read_apply]
  show V m c main_arg0 _ = V m c main_arg0 _
  congr 1
  funext a; apply Fin.ext
  match a with
  | ⟨0, _⟩ => show win0_0.index t (0 : Fin 4) * 1 + 1 * 0 = b.val; rw [e0, hb]; omega
  | ⟨1, _⟩ => show win0_0.index t (1 : Fin 4) * 21 + 1 * cls.val = cls.val; rw [e1]; omega
  | ⟨2, _⟩ => show win0_0.index t (2 : Fin 4) * 64 + 1 * r.val = h.val; rw [e2, hh]; omega
  | ⟨3, _⟩ => show win0_0.index t (3 : Fin 4) * 512 + 1 * l.val = l.val; rw [e3]; omega

/-- The target tile likewise. -/
theorem targTile_apply (c : Dev nD) (t : Fin cfg0.N) (cls : Fin 21) (r : Fin 64) (l : Fin 512) (b : Fin 8) (h : Fin 512)
    (hb : b.val = t.val / 8) (hh : h.val = 64 * (t.val % 8) + r.val) :
    targTile m c t (ix4 0 cls r l) = targArr m c (ix4 b cls h l) := by
  obtain ⟨-, -, -, -, e0, e1, e2, e3, -⟩ := idx_facts t
  show iblk m c 1 t _ = _
  unfold iblk
  rw [View.read_apply]
  show V m c main_arg1 _ = V m c main_arg1 _
  congr 1
  funext a; apply Fin.ext
  match a with
  | ⟨0, _⟩ => show win0_1.index t (0 : Fin 4) * 1 + 1 * 0 = b.val; rw [e0, hb]; omega
  | ⟨1, _⟩ => show win0_1.index t (1 : Fin 4) * 21 + 1 * cls.val = cls.val; rw [e1]; omega
  | ⟨2, _⟩ => show win0_1.index t (2 : Fin 4) * 64 + 1 * r.val = h.val; rw [e2, hh]; omega
  | ⟨3, _⟩ => show win0_1.index t (3 : Fin 4) * 512 + 1 * l.val = l.val; rw [e3]; omega

/-- Statistic `k` of class `cls` over the 512 lanes of row `h` of batch element `b`; zero past the last row. Indexed by a
    natural number so that a tile's rows `64 s + r` and the array's rows `h` are read by one function. -/
def rowStat (c : Dev nD) (k : Fin 3) (b : Fin 8) (cls : Fin 21) (h : ℕ) : EReal :=
  if hh : h < 512 then
    ∑ l : Fin 512, stat k (predArr m c (ix4 b cls ⟨h, hh⟩ l)) (targArr m c (ix4 b cls ⟨h, hh⟩ l))
  else 0

/-- The batch element a grid point works on. -/
def batchOf (n : ℕ) (h : n < cfg0.N) : Fin 8 := ⟨n / 8, by have : cfg0.N = 64 := N_0; omega⟩

/-- Statistic `k` of the tile at point `t` is the sum of its 64 rows' statistics. -/
theorem tile_term (c : Dev nD) (t : Fin cfg0.N) (k : Fin 3) (cls : Fin 21) :
    tileStat (predTile m c t) (targTile m c t) k cls
      = ∑ r : Fin 64, rowStat m c k (batchOf t.val t.isLt) cls (64 * (t.val % 8) + r.val) := by
  unfold tileStat
  refine Finset.sum_congr rfl fun r _ => ?_
  have hlt : 64 * (t.val % 8) + r.val < 512 := by have := r.isLt; omega
  unfold rowStat
  rw [dif_pos hlt]
  refine Finset.sum_congr rfl fun l _ => ?_
  rw [predTile_apply m c t cls r l (batchOf t.val t.isLt) ⟨_, hlt⟩ rfl rfl,
    targTile_apply m c t cls r l (batchOf t.val t.isLt) ⟨_, hlt⟩ rfl rfl]

/-- At the first tile of a batch element the block holds that tile's statistics: the zero block plus them. -/
theorem at_first (c : Dev nD) (t : Fin cfg0.N) (h0 : t.val % 8 = 0) (k : Fin 3) (cls : Fin 21) :
    outsAt0 m c t.val t.isLt (ix3 0 k cls)
      = ∑ r : Fin 64, rowStat m c k (batchOf t.val t.isLt) cls (64 * (t.val % 8) + r.val) := by
  have e : outsAt0 m c t.val t.isLt = k0_pay2 (F := Ideal) (predTile m c t) (targTile m c t) (k0_pay1 (F := Ideal)) :=
    (outsAt0_A m c t h0).trans (first_tile (F := Ideal) c (grid0.coords t) (ms0_0 t) (hs0_0 t) (ms0_1 t) (hs0_1 t) (ms0_2 t) (hs0_2 t)
      ((hcond0_0 t).mpr h0) (iblk m c 0 t) (iblk m c 1 t))
  rw [e, payload_apply, zero_block_apply, zero_add, tile_term]

/-- At a later tile it holds what the point before left plus this tile's statistics. -/
theorem at_later (c : Dev nD) (t : Fin cfg0.N) (h0 : ¬t.val % 8 = 0) (k : Fin 3) (cls : Fin 21) :
    outsAt0 m c t.val t.isLt (ix3 0 k cls)
      = outsAt0 m c (t.val - 1) (Nat.lt_of_le_of_lt (Nat.sub_le _ _) t.isLt) (ix3 0 k cls)
        + ∑ r : Fin 64, rowStat m c k (batchOf t.val t.isLt) cls (64 * (t.val % 8) + r.val) := by
  have e : outsAt0 m c t.val t.isLt = k0_pay2 (F := Ideal) (predTile m c t) (targTile m c t)
      (outsAt0 m c (t.val - 1) (Nat.lt_of_le_of_lt (Nat.sub_le _ _) t.isLt)) :=
    (outsAt0_B m c t h0).trans (later_tile (F := Ideal) c (grid0.coords t) (ms0_0 t) (hs0_0 t) (ms0_1 t) (hs0_1 t) (ms0_2 t) (hs0_2 t)
      (fun h => h0 ((hcond0_0 t).mp h)) (iblk m c 0 t) (iblk m c 1 t)
      (outsAt0 m c (t.val - 1) (Nat.lt_of_le_of_lt (Nat.sub_le _ _) t.isLt)))
  rw [e, payload_apply, tile_term]

/-- THE RUNNING SUM. After point `n` the block holds, at (0, k, cls), the statistics of tiles `0 … n % 8` of batch
    element `n / 8`: by induction on the point. -/
theorem running (c : Dev nD) (k : Fin 3) (cls : Fin 21) : ∀ (n : ℕ) (h : n < cfg0.N),
    outsAt0 m c n h (ix3 0 k cls)
      = ∑ s ∈ Finset.range (n % 8 + 1), ∑ r : Fin 64, rowStat m c k (batchOf n h) cls (64 * s + r.val)
  | 0, h => by
    refine (at_first m c ⟨0, h⟩ rfl k cls).trans ?_
    show ∑ r : Fin 64, rowStat m c k (batchOf 0 h) cls (64 * (0 % 8) + r.val) = _
    rw [show (0 : ℕ) % 8 = 0 from rfl, Finset.sum_range_one]
  | n + 1, h => by
    by_cases h0 : (n + 1) % 8 = 0
    · refine (at_first m c ⟨n + 1, h⟩ h0 k cls).trans ?_
      show ∑ r : Fin 64, rowStat m c k (batchOf (n + 1) h) cls (64 * ((n + 1) % 8) + r.val) = _
      rw [h0, Finset.sum_range_one]
    · refine (at_later m c ⟨n + 1, h⟩ h0 k cls).trans ?_
      show outsAt0 m c n (Nat.lt_of_succ_lt h) (ix3 0 k cls)
        + ∑ r : Fin 64, rowStat m c k (batchOf (n + 1) h) cls (64 * ((n + 1) % 8) + r.val) = _
      have e1 : (n + 1) % 8 = n % 8 + 1 := by omega
      have e2 : batchOf (n + 1) h = batchOf n (Nat.lt_of_succ_lt h) := Fin.ext (by show (n + 1) / 8 = n / 8; omega)
      rw [running c k cls n (Nat.lt_of_succ_lt h), e1, e2]
      exact (Finset.sum_range_succ
        (fun s => ∑ r : Fin 64, rowStat m c k (batchOf n (Nat.lt_of_succ_lt h)) cls (64 * s + r.val)) (n % 8 + 1)).symm

/-- Statistic `k` of class `cls` over all rows and lanes of batch element `b`. -/
def batchStat (c : Dev nD) (k : Fin 3) (b : Fin 8) (cls : Fin 21) : EReal :=
  ∑ h : Fin 512, ∑ l : Fin 512, stat k (predArr m c (ix4 b cls h l)) (targArr m c (ix4 b cls h l))

/-- After the last tile of a batch element the block holds the element's statistics: eight tiles of 64 rows are its
    512 rows. -/
theorem batch_total (c : Dev nD) (t : Fin cfg0.N) (h7 : t.val % 8 = 7) (k : Fin 3) (cls : Fin 21) :
    outsAt0 m c t.val t.isLt (ix3 0 k cls) = batchStat m c k (batchOf t.val t.isLt) cls := by
  rw [running m c k cls t.val t.isLt, h7]
  refine (TileSum.sum_range_tiles_eq_sum_fin (fun h => rowStat m c k (batchOf t.val t.isLt) cls h) 8 64).trans ?_
  unfold batchStat
  refine Finset.sum_congr rfl fun h _ => ?_
  show rowStat m c k (batchOf t.val t.isLt) cls h.val = _
  unfold rowStat
  rw [dif_pos h.isLt]

/-- What the region's output array ends holding: entry (b, k, cls) is statistic `k` of class `cls` of batch element `b`. -/
def partialArr (c : Dev nD) : FVec Ideal S8x3x21 .f32 := fun i => batchStat m c (i 1) (i 0) (i 2)

/-- WHAT A WRITE-BACK WRITES. The output's block is written back after the last tile of each batch element, and it is
    then block `t / 8` of `partialArr`. -/
theorem flushed_eq (c : Dev nD) (t : Fin cfg0.N) (hf : (cfg0.win 2).flush t = true) :
    (dats m 0 c).flushed 2 t = ((cfg0.win 2).blk t).view.read (Elt Ideal) (partialArr m c) := by
  have h7 : t.val % 8 = 7 := (flush0_2 t).mp hf
  obtain ⟨-, -, -, -, -, -, -, -, e0, e1, e2⟩ := idx_facts t
  show (cfg0.win 2).cut (grid0.coords t) ((dats m 0 c).after 2 t) = _
  rw [after0_2]
  funext j
  show outsAt0 m c t.val t.isLt j = partialArr m c (((cfg0.win 2).blk t).view.emb j)
  have hj0 : (j 0).val < 1 := (j 0).isLt
  have hj : (j : S1x3x21.Idx) = ix3 (0 : Fin 1) (j 1) (j 2) := by
    funext a; apply Fin.ext
    match a with
    | ⟨0, _⟩ => show (j 0).val = 0; omega
    | ⟨1, _⟩ => rfl
    | ⟨2, _⟩ => rfl
  have he : ((cfg0.win 2).blk t).view.emb j = (ix3 (batchOf t.val t.isLt) (j 1) (j 2) : S8x3x21.Idx) := by
    funext a; apply Fin.ext
    match a with
    | ⟨0, _⟩ => show win0_2.index t (0 : Fin 3) * 1 + 1 * (j 0).val = t.val / 8; rw [e0]; omega
    | ⟨1, _⟩ => show win0_2.index t (1 : Fin 3) * 3 + 1 * (j 1).val = (j 1).val; rw [e1]; omega
    | ⟨2, _⟩ => show win0_2.index t (2 : Fin 3) * 21 + 1 * (j 2).val = (j 2).val; rw [e2]; omega
  rw [he]
  exact (congrArg (fun y => outsAt0 m c t.val t.isLt y) hj).trans (batch_total m c t h7 (j 1) (j 2))

/-- An index of the output array is in point `t`'s block iff each coordinate is in the block's range on its axis. -/
theorem mem_blk (t : Fin cfg0.N) (i : S8x3x21.Idx) :
    i ∈ ((cfg0.win 2).blk t).view.set
      ↔ ∀ a : Fin 3, win0_2.index t a * S1x3x21.size a ≤ (i a).val ∧ (i a).val < win0_2.index t a * S1x3x21.size a + S1x3x21.size a := by
  show i ∈ ((View.whole main_v0).slice (win0_2.rect t)).set ↔ _
  rw [View.set_slice_whole, Rect.mem_set_unit]
  exact Iff.rfl

/-- Every entry (b, k, cls) of the output array is in the block written back after the last tile of batch element `b`. -/
theorem covered (i : S8x3x21.Idx) : ∃ t : Fin cfg0.N, (cfg0.win 2).flush t = true ∧ i ∈ ((cfg0.win 2).blk t).view.set := by
  have hN : cfg0.N = 64 := N_0
  have hi0 : (i 0).val < 8 := (i 0).isLt
  have hi1 : (i 1).val < 3 := (i 1).isLt
  have hi2 : (i 2).val < 21 := (i 2).isLt
  have ht : 8 * (i 0).val + 7 < cfg0.N := by omega
  obtain ⟨-, -, -, -, -, -, -, -, e0, e1, e2⟩ := idx_facts ⟨8 * (i 0).val + 7, ht⟩
  refine ⟨⟨8 * (i 0).val + 7, ht⟩, (flush0_2 _).mpr (by show (8 * (i 0).val + 7) % 8 = 7; omega), ?_⟩
  rw [mem_blk]
  intro a
  match a with
  | ⟨0, _⟩ =>
    show win0_2.index ⟨8 * (i 0).val + 7, ht⟩ (0 : Fin 3) * 1 ≤ (i 0).val ∧ (i 0).val < win0_2.index ⟨8 * (i 0).val + 7, ht⟩ (0 : Fin 3) * 1 + 1
    rw [e0]; show (8 * (i 0).val + 7) / 8 * 1 ≤ (i 0).val ∧ (i 0).val < (8 * (i 0).val + 7) / 8 * 1 + 1; omega
  | ⟨1, _⟩ =>
    show win0_2.index ⟨8 * (i 0).val + 7, ht⟩ (1 : Fin 3) * 3 ≤ (i 1).val ∧ (i 1).val < win0_2.index ⟨8 * (i 0).val + 7, ht⟩ (1 : Fin 3) * 3 + 3
    rw [e1]; omega
  | ⟨2, _⟩ =>
    show win0_2.index ⟨8 * (i 0).val + 7, ht⟩ (2 : Fin 3) * 21 ≤ (i 2).val ∧ (i 2).val < win0_2.index ⟨8 * (i 0).val + 7, ht⟩ (2 : Fin 3) * 21 + 21
    rw [e2]; omega

/-- So the output array ends holding `partialArr`: the eight write-backs cover it. -/
theorem final_partial (c : Dev nD) : (dats m 0 c).arrAt 2 cfg0.N = partialArr m c :=
  (dats m 0 c).arrAt_eq_of_cover 2 (partialArr m c) (flushed_eq m c) covered

end Cert.KernelIdeal.Point

end
-- ==== Proof.KernelValue.lean ====
/-
  The kernel's result on the extended reals.

  After the region the host sums the [8, 3, 21] array of per-batch statistics over the batch axis from zero, cuts the
  three rows out as vectors of 21 classes, and applies the intersection-over-union tail. Read over `partialArr` (what the
  region leaves, `Cert.KernelIdeal.Point.final_partial`), row `k` is class statistic `k` of the two arrays, so the result
  buffer ends at `Cert.Jaccard.iouOf` of the arguments (`run`).
-/
import proofs.«158368_j88905823027748_1_alg».proof.Proof.RunningSums
import Idealize.ShloMosaic.Lib.StableHlo.Run
import Idealize.ShloMosaic.Lib.IdealHost
import Idealize.ShloMosaic.Lib.Pipeline.FrameSuffix

noncomputable section

namespace Cert.KernelIdeal.Point

open Cert.KernelIdeal Cert.KernelIdeal.Gen Cert.Jaccard
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- Row `k` of the per-batch statistics summed over the batch, as the host takes it: the reduce over axis 0 from zero,
    the slice of row `k`, the unit axis dropped. -/
def hostRow (A : FVec Ideal S8x3x21 .f32) (k : ℕ) (hs : S3x21.Slices ![k, 0] S1x21) : FVec Ideal S21 .f32 :=
  shapeCast S21 (extractStridedSlice S1x21 ![k, 0]
    (Host.reduceAdd (F := Ideal) A (constant (F := Ideal) S_ .f32 0x00000000#32) reducesTo_S8x3x21_S3x21_d0 h_S_) hs) shapeCasts_S1x21_S21

/-- The host operations after the region, as one function of the region's output array. -/
def tailOf (A : FVec Ideal S8x3x21 .f32) : FVec Ideal S21 .f32 :=
  iouTail (F := Ideal) bcast_S_S21 (hostRow A 0 slices_S3x21_S1x21_0_0) (hostRow A 1 slices_S3x21_S1x21_1_0)
    (hostRow A 2 slices_S3x21_S1x21_2_0)

theorem tail_value (c : Dev nD) :
    Pipeline.afterTail₀ cfgs (dats m) 0 (V0 m) [hostOps1, hostOps1_1] c main_v15 = tailOf (partialArr m c) := by
  unfold Pipeline.afterTail₀
  simp only [hostOps1, hostOps1_1, List.flatten_cons, List.flatten_nil, List.append_nil, List.cons_append, List.nil_append]
  after_results
  have hA : Pipeline.withArrays (cfgs 0).spec c (V0 m c) (fun w => (dats m 0 c).arrAt w (cfgs 0).N) (Proc.devRef .tc main_v0)
      = partialArr m c :=
    (Pipeline.withArrays_arr spec0 launch0.win.arr_inj c _ _ 2).trans (final_partial m c)
  rw [hA]
  rfl

/-- Row `k` of the host's sum over the batch is class statistic `k` of the arrays: the reduce over axis 0 starts from zero
    and adds the eight batch elements' statistics, which together are the sum over batch, rows and lanes. -/
theorem hostRow_partial (c : Dev nD) (k : Fin 3) (kn : ℕ) (hkn : kn = k.val) (hs : S3x21.Slices ![kn, 0] S1x21) :
    hostRow (partialArr m c) kn hs = fun j => classStat (predArr m c) (targArr m c) k (j 0) := by
  subst hkn
  funext j
  obtain ⟨cls, rfl⟩ : ∃ cls : Fin 21, j = ix1 cls := ⟨j 0, eq_ix1 j⟩
  show hostRow (partialArr m c) k.val hs (ix1 cls) = classStat (predArr m c) (targArr m c) k cls
  unfold hostRow
  refine (shapeCast_apply _ shapeCasts_S1x21_S21 (ix1 cls) (ix2 0 cls)
    (by rw [Shape.rowMajor_val_two, Shape.rowMajor_val_one]; show 0 * 21 + cls.val = cls.val; omega)).trans ?_
  refine (extractStridedSlice_apply ![k.val, 0] _ hs (ix2 0 cls) (ix2 k cls) (fun a => by
    match a with
    | ⟨0, _⟩ => show k.val = k.val + 0; omega
    | ⟨1, _⟩ => show cls.val = 0 + cls.val; omega)).trans ?_
  refine (hostReduceAdd_apply _ _ reducesTo_S8x3x21_S3x21_d0 h_S_ (ix2 k cls)).trans ?_
  refine (Ideal.hostReduceAdd_single reducesTo_S8x3x21_S3x21_d0 (by decide : S8x3x21.Reduces [0] S3x21) _ _ (ix2 k cls)).trans ?_
  show Ideal.ofBits .f32 0x00000000#32 + _ = _
  rw [Ideal.ofBits_zero_f32, zero_add]
  rfl

/-- So the value the host tail computes from the region's output array is `iouOf` of the two argument arrays. -/
theorem tail_partial (c : Dev nD) : tailOf (partialArr m c) = iouOf bcast_S_S21 (predArr m c) (targArr m c) := by
  unfold tailOf iouOf
  rw [hostRow_partial m c 0 0 rfl slices_S3x21_S1x21_0_0, hostRow_partial m c 1 1 rfl slices_S3x21_S1x21_1_0,
    hostRow_partial m c 2 2 rfl slices_S3x21_S1x21_2_0]

/-- The result buffer is neither scoped nor an array of the pipeline, so the frame run states its final contents. -/
theorem result_bypasses : main_v15 ∈ Pipeline.restRefs sig (cfgs 0).spec :=
  Pipeline.mem_restRefs_of main_v15 rfl (fun w => by fin_cases w <;> decide)

/-- THE KERNEL'S RUN, READ: every weakly fair execution terminates with the result at `iouOf` of the arguments' launch
    contents and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v15)
        = iouOf bcast_S_S21 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v15 result_bypasses).trans ((tail_value m c).trans (tail_partial m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Point

end
-- ==== Proof.lean ====
/-
  Per-class intersection over union of thresholded predictions against 0/1 targets: the kernel against its jnp reference.

  Both programs take predictions P and targets T of shape [8, 21, 512, 512] (batch, class, row, lane). With the bits
  p = (P ≥ 1/2) and t = (T = 1) read as 0/1 values, both compute for every class c the three statistics
      I(c) = Σ p·t,   A(c) = Σ p,   B(c) = Σ t      (sums over batch, rows and lanes)
  and end with the same tail: U = A + B − I, the result I / max(U, 1), and the quiet-NaN word where U = 0
  (`Cert.Jaccard.iouOf`). They differ in how the sums are taken:
  * the kernel runs an 8 × 8 grid; point (b, s) adds, into a [1, 3, 21] block kept across the eight points of batch
    element b, the double sum over the 64 rows and 512 lanes of tile s of the values p·t, p and t as floats; the block is
    written back after the eighth tile, and the host then sums the eight blocks from zero and applies the tail;
  * the reference takes the conjunction of the bits, widens each bit array to 32-bit words, sums over batch, rows and
    lanes in 32-bit arithmetic, and converts the three counts to floats.
  On the extended reals the kernel's sums re-associate into the triple sum (only commutativity and associativity of +
  are used, with 0 + x = x: no finiteness), and the reference's word sums are the same numbers because a class has
  8·512·512 = 2^21 positions, far fewer than 2^31, so no 32-bit sum wraps, and the value of a conjunction of bits is
  the product of their values. The precondition (finite inputs) is therefore never opened.

  The frames of the two kernel programs and the reference's run are generated; the ideal pass rewrote nothing, so
  `preserves` is `True`.
-/
import proofs.«158368_j88905823027748_1_alg».proof.Defs
import proofs.«158368_j88905823027748_1_alg».proof.Proof.Gen.Kernel
import proofs.«158368_j88905823027748_1_alg».proof.Proof.Gen.Kernel.Frame
import proofs.«158368_j88905823027748_1_alg».proof.Proof.Gen.KernelIdeal
import proofs.«158368_j88905823027748_1_alg».proof.Proof.Gen.KernelIdeal.Frame
import proofs.«158368_j88905823027748_1_alg».proof.Proof.Gen.ReferenceIdeal
import proofs.«158368_j88905823027748_1_alg».proof.Proof.Gen.Pre_finite_inputs
import proofs.«158368_j88905823027748_1_alg».proof.Proof.RefRun
import proofs.«158368_j88905823027748_1_alg».proof.Proof.RefRead
import proofs.«158368_j88905823027748_1_alg».proof.Proof.RefValue
import proofs.«158368_j88905823027748_1_alg».proof.Proof.KernelValue
import Idealize.ShloMosaic.Adequacy
import Idealize.ShloMosaic.Init

noncomputable section

namespace Cert.Proof

open Idealize.ShloMosaic Idealize.SL.Sem

/-- The word-level kernel runs and leaves its arguments unchanged: its generated frame. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories that agree on P and T both programs end with `iouOf P T`: the kernel by its run read through the
    running sums and the host tail, the reference by its run read through the counts. -/
theorem algebraic : Cert.algebraic_KernelIdeal_ReferenceIdeal := by
  intro m ρ m' ρ' _ hagree
  refine ⟨fun c => Cert.Jaccard.iouOf Cert.KernelIdeal.Gen.bcast_S_S21
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Point.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v21_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
